-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x2 : Shape := ⟨2, ![2048, 2]⟩
abbrev S2 : Shape := ⟨1, ![2]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x2 : S_.BroadcastsInDim S2048x2 (![] : Fin 0 → Fin S2048x2.rank)
  reducesTo_S2048x2_S_d0_1 : S2048x2.ReducesTo [0, 1] S_
  bcast_S_S2 : S_.BroadcastsInDim S2 (![] : Fin 0 → Fin S2.rank)
  reducesTo_S2_S_d0 : S2.ReducesTo [0] S_

variable [Facts]

def fn {F : FTy → Type} [FloatOps F] (main_arg0 : FVec F S16384x2048 .f32) (main_arg1 : FVec F S2048x2 .f32) (main_arg2 : FVec F S2 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x2 .f32 := Host.absf main_arg1
  let main_cst_0 : FVec F S_ .f32 := constant S_ .f32 0x7F800000#32
  let main_v5 : FVec F S2048x2 .f32 := broadcastInDim S2048x2 ![] bcast_S_S2048x2 main_cst_0
  let main_v6 : IVec S2048x2 1 := cmpf .olt main_v4 main_v5
  let main_c_1 : IVec S_ 1 := constantI S_ 1 1#1
  let main_v7 : IVec S_ 1 := (fun x v => Host.reduce IntOp.andi x v reducesTo_S2048x2_S_d0_1 h_S_) main_v6 main_c_1
  let main_v8 : IVec S_ 1 := andi main_v3 main_v7
  let main_v9 : FVec F S2 .f32 := Host.absf main_arg2
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  main_v13
-- ==== Kernel.lean ====
abbrev S16384x2048 : Shape := ⟨2, ![16384, 2048]⟩
abbrev S2048x2 : Shape := ⟨2, ![2048, 2]⟩
abbrev S2 : Shape := ⟨1, ![2]⟩
abbrev S256x2048 : Shape := ⟨2, ![256, 2048]⟩
abbrev S256x2 : Shape := ⟨2, ![256, 2]⟩
abbrev S1x2 : Shape := ⟨2, ![1, 2]⟩
abbrev S256x1 : Shape := ⟨2, ![256, 1]⟩

abbrev nBuf : Space → Nat
  | .hbm => 5
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048x2, .f32⟩
  | .hbm, ⟨2, _⟩ => ⟨S2, .f32⟩
  | .hbm, ⟨3, _⟩ => ⟨S16384x2048, .f32⟩
  | .hbm, ⟨4, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S2048x2, .f32⟩
  | .local _ .vmem, ⟨3, _⟩ => ⟨S2, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S256x2048_S256x2048_0_0 : ∀ a, (![0, 0] : Fin 2 → Nat) a + S256x2048.size a ≤ S256x2048.size a
  h_S256x2048 : 0 < S256x2048.numel
  inb_S2048x2_S2048x2_0_0 : ∀ a, (![0, 0] : Fin 2 → Nat) a + S2048x2.size a ≤ S2048x2.size a
  h_S2048x2 : 0 < S2048x2.numel
  inb_S2_S2_0 : ∀ a, (![0] : Fin 1 → Nat) a + S2.size a ≤ S2.size a
  h_S2 : 0 < S2.numel
  shapeCasts_S2_S1x2 : S2.ShapeCasts S1x2
  broadcasts_S1x2_S256x2 : S1x2.Broadcasts S256x2
  natLt_1_32 : 1 < 32
  slices_S256x2_o0_0_S256x1 : S256x2.Slices ![0, 0] S256x1
  slices_S256x2_o0_1_S256x1 : S256x2.Slices ![0, 1] S256x1
  broadcasts_S256x1_S256x2048 : S256x1.Broadcasts S256x2048
  dot_S256x2048_S2048x2_S256x2_1_0_0_1_n_n_wf : DotDims.WF S256x2048 S2048x2 S256x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S16384x2048.size a
  hwx0_0 : ∀ i : grid0.Coords, EltTy.bits .f32 = 32 ∨ (Rect.block (s := S16384x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2.size a ≤ S2048x2.size a
  hwx0_1 : ∀ i : grid0.Coords, EltTy.bits .f32 = 32 ∨ (Rect.block (s := S2048x2) S2048x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2.size a ≤ S2.size a
  hwx0_2 : ∀ i : grid0.Coords, EltTy.bits .f32 = 32 ∨ (Rect.block (s := S2) S2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S16384x2048.size a
  hwx0_3 : ∀ i : grid0.Coords, EltTy.bits .f32 = 32 ∨ (Rect.block (s := S16384x2048) S256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S16384x2048.size a
  hwx0_4 : ∀ i : grid0.Coords, EltTy.bits .f32 = 32 ∨ (Rect.block (s := S16384x2048) S256x2048.size (cc0_transform_4 i) (hinb0_4 i)).WholeWords (EltTy.packing .f32)

variable [Facts₀]

def dot_S256x2048_S2048x2_S256x2_1_0_0_1_n_n : DotDims S256x2048 S2048x2 S256x2 where
  lhsContracting := [1]
  rhsContracting := [0]
  lhsNonContracting := [0]
  rhsNonContracting := [1]
  lhsBatch := []
  rhsBatch := []
  wf := dot_S256x2048_S2048x2_S256x2_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S256x2048.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2048x2 : Shape := ⟨2, ![2048, 2]⟩
abbrev S2 : Shape := ⟨1, ![2]⟩
abbrev S16384x2 : Shape := ⟨2, ![16384, 2]⟩
abbrev S1x2 : Shape := ⟨2, ![1, 2]⟩
abbrev S_ : Shape := ⟨0, ![]⟩
abbrev S16384x1 : Shape := ⟨2, ![16384, 1]⟩

abbrev nBuf : Space → Nat
  | .hbm => 37
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2, .f32⟩
  | .hbm, ⟨2, _⟩ => ⟨S2, .f32⟩
  | .hbm, ⟨3, _⟩ => ⟨S16384x2, .f32⟩
  | .hbm, ⟨4, _⟩ => ⟨S1x2, .f32⟩
  | .hbm, ⟨5, _⟩ => ⟨S16384x2, .f32⟩
  | .hbm, ⟨6, _⟩ => ⟨S16384x2, .f32⟩
  | .hbm, ⟨7, _⟩ => ⟨S16384x2, .f32⟩
  | .hbm, ⟨8, _⟩ => ⟨S16384x2, .f32⟩
  | .hbm, ⟨9, _⟩ => ⟨S_, .f32⟩
  | .hbm, ⟨10, _⟩ => ⟨S16384x2, .f32⟩
  | .hbm, ⟨11, _⟩ => ⟨S16384x2, .f32⟩
  | .hbm, ⟨12, _⟩ => ⟨S_, .f32⟩
  | .hbm, ⟨13, _⟩ => ⟨S16384x2, .f32⟩
  | .hbm, ⟨14, _⟩ => ⟨S16384x2, .f32⟩
  | .hbm, ⟨15, _⟩ => ⟨S_, .f32⟩
  | .hbm, ⟨16, _⟩ => ⟨S16384x2, .f32⟩
  | .hbm, ⟨17, _⟩ => ⟨S16384x2, .i1⟩
  | .hbm, ⟨18, _⟩ => ⟨S16384x2, .f32⟩
  | .hbm, ⟨19, _⟩ => ⟨S16384x2, .f32⟩
  | .hbm, ⟨20, _⟩ => ⟨S16384x1, .f32⟩
  | .hbm, ⟨21, _⟩ => ⟨S16384x2048, .f32⟩
  | .hbm, ⟨22, _⟩ => ⟨S16384x2048, .f32⟩
  | .hbm, ⟨23, _⟩ => ⟨S16384x1, .f32⟩
  | .hbm, ⟨24, _⟩ => ⟨S16384x2048, .f32⟩
  | .hbm, ⟨25, _⟩ => ⟨S16384x2048, .f32⟩
  | .hbm, ⟨26, _⟩ => ⟨S16384x1, .f32⟩
  | .hbm, ⟨27, _⟩ => ⟨S16384x1, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S16384x2048, .f32⟩
  | .hbm, ⟨33, _⟩ => ⟨S16384x2048, .f32⟩
  | .hbm, ⟨34, _⟩ => ⟨S16384x1, .f32⟩
  | .hbm, ⟨35, _⟩ => ⟨S16384x2048, .f32⟩
  | .hbm, ⟨36, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩

abbrev nD : Nat := 1
abbrev τ : Topo := Topo.v7x

variable {F : FTy → Type} [FloatOps F]

class Facts₀ : Prop where
  bcast_S2_S1x2_1 : S2.BroadcastsInDim S1x2 (![1] : Fin 1 → Fin S1x2.rank)
  bcast_S1x2_S16384x2_0_1 : S1x2.BroadcastsInDim S16384x2 (![0, 1] : Fin 2 → Fin S16384x2.rank)
  bcast_S_S16384x2 : S_.BroadcastsInDim S16384x2 (![] : Fin 0 → Fin S16384x2.rank)
  slices_S16384x2_S16384x1_0_0 : S16384x2.Slices ![0, 0] S16384x1
  bcast_S16384x1_S16384x2048_0_1 : S16384x1.BroadcastsInDim S16384x2048 (![0, 1] : Fin 2 → Fin S16384x2048.rank)
  slices_S16384x2_S16384x1_0_1 : S16384x2.Slices ![0, 1] S16384x1
  dot_S16384x2048_S2048x2_S16384x2_1_0_0_1_n_n_wf : DotDims.WF S16384x2048 S2048x2 S16384x2 [1] [0] [0] [1] [] []

variable [Facts₀]

def dot_S16384x2048_S2048x2_S16384x2_1_0_0_1_n_n : DotDims S16384x2048 S2048x2 S16384x2 where
  lhsContracting := [1]
  rhsContracting := [0]
  lhsNonContracting := [0]
  rhsNonContracting := [1]
  lhsBatch := []
  rhsBatch := []
  wf := dot_S16384x2048_S2048x2_S16384x2_1_0_0_1_n_n_wf

class Facts : Prop extends Facts₀ where

variable [Facts]
-- ==== Proof.Gate.lean ====
/-
  The routing arithmetic of one token row, on the extended reals.

  Each token row `r` of `x` gets one logit per branch, `z r j = Σ_k x[r,k] · w[k,j] + b[j]`, and a score
  `σ = 1 / (1 + e^(-z))`. A branch keeps the row when its score exceeds one half; `keep σ` is that decision as the
  number 1 or 0, and `σ · keep σ` the routed score. Both outputs are then written from one entry `e = x[r,d]` and
  the row's two scores:

    pre  = (e · keep σ₀) · (σ₀ · keep σ₀) + (e · keep σ₁) · (σ₁ · keep σ₁)
    post = (e · keep σ₀ + e · keep σ₁) · (σ₀ · keep σ₀ + σ₁ · keep σ₁)

  Both programs compute exactly these expressions, in this order of operations, so no algebraic law and no
  finiteness of the inputs is used anywhere: the only facts needed are that the two programs spell the score, the
  decision and the logit's sum in different but equal ways.
-/
import Idealize.ShloMosaic.Lib.ValueIdx
import Idealize.ShloMosaic.Lib.IdealHost
import Idealize.ShloMosaic.Lib.KernelVsHost
import Idealize.ShloMosaic.PureOps.Ideal.Laws

noncomputable section

open scoped BigOperators

namespace Cert.Gate

open Idealize.ShloMosaic Idealize.ShloMosaic.ValueIdx

/-- The token array's shape, `[16384, 2048]`. -/
abbrev Tokens : Shape := ⟨2, ![16384, 2048]⟩
/-- The gate weights' shape, `[2048, 2]`. -/
abbrev Weights : Shape := ⟨2, ![2048, 2]⟩
/-- The gate bias's shape, `[2]`. -/
abbrev Bias : Shape := ⟨1, ![2]⟩

/-- A branch's score from its logit: the logistic function, `1 / (1 + e^(-z))` with its limits 0 and 1 at the infinities. -/
def score (z : EReal) : EReal := Ideal.logistic z

/-- The routing decision as a number: 1 when the score is above one half (the f32 word `0x3F000000`), else 0. -/
def keep (s : EReal) : EReal := (((Ideal.cmp .ogt s (Ideal.ofBits .f32 0x3F000000#32)).toNat : ℝ) : EReal)

/-- The pre-combine output entry from the input entry `e` and the row's two scores. -/
def pre (e s0 s1 : EReal) : EReal := e * keep s0 * (s0 * keep s0) + e * keep s1 * (s1 * keep s1)

/-- The post-combine output entry from the input entry `e` and the row's two scores. -/
def post (e s0 s1 : EReal) : EReal := (e * keep s0 + e * keep s1) * (s0 * keep s0 + s1 * keep s1)

/-- Row `r`'s logit for branch `j`: the row's inner product with column `j` of the weights, plus the bias. -/
def logit (x : Tokens.Idx → EReal) (w : Weights.Idx → EReal) (b : Bias.Idx → EReal) (r : Fin 16384) (j : Fin 2) : EReal :=
  (∑ k : Fin 2048, x (ix2 r k) * w (ix2 k j)) + b (ix1 j)

/-- The whole pre-combine output as one function of the three argument arrays. -/
def preAll (x : Tokens.Idx → EReal) (w : Weights.Idx → EReal) (b : Bias.Idx → EReal) : Tokens.Idx → EReal :=
  fun i => pre (x i) (score (logit x w b (i 0) 0)) (score (logit x w b (i 0) 1))

/-- The whole post-combine output as one function of the three argument arrays. -/
def postAll (x : Tokens.Idx → EReal) (w : Weights.Idx → EReal) (b : Bias.Idx → EReal) : Tokens.Idx → EReal :=
  fun i => post (x i) (score (logit x w b (i 0) 0)) (score (logit x w b (i 0) 1))

/-- The host's spelling of the score: one over one plus the exponential of the negated logit, the ones being the f32
    word `0x3F800000`. -/
theorem score_host (z : EReal) :
    Ideal.div (Ideal.ofBits .f32 0x3F800000#32) (Ideal.ofBits .f32 0x3F800000#32 + Ideal.exp (-z)) = score z := by
  rw [Ideal.ofBits_one_f32]; rfl

/-- The kernel's spelling of the decision: the comparison bit widened to 32 bits and read as a signed integer is the
    bit read as a natural number. -/
theorem keep_kernel (s : EReal) :
    ((((Ideal.cmp .ogt s (Ideal.ofBits .f32 0x3F000000#32)).setWidth 32).toInt : ℝ) : EReal) = keep s := by
  unfold keep
  rw [toInt_setWidth_bit]
  norm_cast

end Cert.Gate

end
-- ==== Proof.GateBlock.lean ====
/-
  The gate's score inside one block of 256 token rows.

  The kernel body computes the logits of its 256 rows with one matrix product of the `[256, 2048]` block and the
  `[2048, 2]` weights into a zero accumulator, adds the bias (a `[2]` vector viewed as one row and repeated down the
  rows), and applies the logistic function. On the extended reals the matrix product at `(p, j)` is the plain sum
  over `k` of `x[p,k] · w[k,j]`, so the value at `(p, j)` is `score` of that sum plus `b[j]`.
-/
import proofs.«177491_j55241869361852_1_alg».proof.Proof.Gen.KernelIdeal.Skeleton
import proofs.«177491_j55241869361852_1_alg».proof.Proof.Gate
import Idealize.ShloMosaic.Lib.ValueLayout

noncomputable section

open scoped BigOperators

namespace Cert.GateBlock

open Cert.KernelIdeal Cert.KernelIdeal.Gen Idealize.ShloMosaic Idealize.ShloMosaic.ValueIdx Cert.Gate

/-- The left operand's row coordinate is the output's row. -/
theorem lhs_row (i : S256x2.Idx) (q : dot_S256x2048_S2048x2_S256x2_1_0_0_1_n_n.contr.Idx) :
    (dot_S256x2048_S2048x2_S256x2_1_0_0_1_n_n.lhsIdx i q 0).val = (i 0).val := by
  unfold DotDims.lhsIdx
  rw [dif_neg (show ¬(0 : Fin S256x2048.rank) ∈ dot_S256x2048_S2048x2_S256x2_1_0_0_1_n_n.lhsBatch by decide),
    dif_pos (show (0 : Fin S256x2048.rank) ∈ dot_S256x2048_S2048x2_S256x2_1_0_0_1_n_n.lhsNonContracting by decide)]
  rfl

/-- The left operand's column coordinate is the contraction index. -/
theorem lhs_col (i : S256x2.Idx) (q : dot_S256x2048_S2048x2_S256x2_1_0_0_1_n_n.contr.Idx) :
    (dot_S256x2048_S2048x2_S256x2_1_0_0_1_n_n.lhsIdx i q 1).val = (q ⟨0, by decide⟩).val :=
  dot_S256x2048_S2048x2_S256x2_1_0_0_1_n_n.lhsIdx_val_of_single rfl i q

/-- The right operand's row coordinate is the contraction index. -/
theorem rhs_row (i : S256x2.Idx) (q : dot_S256x2048_S2048x2_S256x2_1_0_0_1_n_n.contr.Idx) :
    (dot_S256x2048_S2048x2_S256x2_1_0_0_1_n_n.rhsIdx i q 0).val = (q ⟨0, by decide⟩).val :=
  dot_S256x2048_S2048x2_S256x2_1_0_0_1_n_n.rhsIdx_val_of_single rfl i q

/-- The right operand's column coordinate is the output's column. -/
theorem rhs_col (i : S256x2.Idx) (q : dot_S256x2048_S2048x2_S256x2_1_0_0_1_n_n.contr.Idx) :
    (dot_S256x2048_S2048x2_S256x2_1_0_0_1_n_n.rhsIdx i q 1).val = (i 1).val := by
  unfold DotDims.rhsIdx
  rw [dif_neg (show ¬(1 : Fin S2048x2.rank) ∈ dot_S256x2048_S2048x2_S256x2_1_0_0_1_n_n.rhsBatch by decide),
    dif_pos (show (1 : Fin S2048x2.rank) ∈ dot_S256x2048_S2048x2_S256x2_1_0_0_1_n_n.rhsNonContracting by decide)]
  rfl

/-- The block's matrix product into the zero accumulator, at row `p` and branch `j`: the row's inner product with
    column `j` of the weights. -/
theorem product_apply (P0 : Vec Ideal S256x2048 .f32) (P1 : Vec Ideal S2048x2 .f32) (p : Fin 256) (j : Fin 2) :
    matmul (F := Ideal) (φ₁ := .f32) (φ₂ := .f32) dot_S256x2048_S2048x2_S256x2_1_0_0_1_n_n (some .fp32) P0 P1 (constant (F := Ideal) S256x2 .f32 0x00000000#32) (ix2 p j)
      = ∑ k : Fin 2048, P0 (ix2 p k) * P1 (ix2 k j) := by
  simp only [matmul]
  rw [Ideal.matmul_constant_zero_apply, ← Equiv.sum_comp (contrEquiv1 dot_S256x2048_S2048x2_S256x2_1_0_0_1_n_n 2048 rfl rfl).symm]
  refine Finset.sum_congr rfl fun k _ => ?_
  have hk := contrEquiv1_symm_val dot_S256x2048_S2048x2_S256x2_1_0_0_1_n_n 2048 rfl rfl k
  have el : dot_S256x2048_S2048x2_S256x2_1_0_0_1_n_n.lhsIdx (ix2 p j) ((contrEquiv1 dot_S256x2048_S2048x2_S256x2_1_0_0_1_n_n 2048 rfl rfl).symm k) = ix2 p k :=
    funext fun a => Fin.ext (by
      match a with
      | ⟨0, _⟩ => exact lhs_row _ _
      | ⟨1, _⟩ => exact (lhs_col _ _).trans hk)
  have er : dot_S256x2048_S2048x2_S256x2_1_0_0_1_n_n.rhsIdx (ix2 p j) ((contrEquiv1 dot_S256x2048_S2048x2_S256x2_1_0_0_1_n_n 2048 rfl rfl).symm k) = ix2 k j :=
    funext fun a => Fin.ext (by
      match a with
      | ⟨0, _⟩ => exact (rhs_row _ _).trans hk
      | ⟨1, _⟩ => exact rhs_col _ _)
  rw [el, er]

/-- The score the body computes for row `p` of its block and branch `j`. -/
theorem score_block (P0 : Vec Ideal S256x2048 .f32) (P1 : Vec Ideal S2048x2 .f32) (P2 : Vec Ideal S2 .f32) (p : Fin 256) (j : Fin 2) :
    k0_pay1 P0 P1 P2 (ix2 p j) = score ((∑ k : Fin 2048, P0 (ix2 p k) * P1 (ix2 k j)) + P2 (ix1 j)) := by
  unfold k0_pay1
  show Ideal.logistic (matmul (F := Ideal) (φ₁ := .f32) (φ₂ := .f32) dot_S256x2048_S2048x2_S256x2_1_0_0_1_n_n (some .fp32) P0 P1 (constant (F := Ideal) S256x2 .f32 0x00000000#32) (ix2 p j)
      + broadcastTo S256x2 (shapeCast S1x2 P2 shapeCasts_S2_S1x2) broadcasts_S1x2_S256x2 (ix2 p j)) = _
  rw [product_apply, broadcastTo_1b_ab_apply, shapeCast_a_1a_apply]
  rfl

end Cert.GateBlock

end
-- ==== Proof.BlockValue.lean ====
/-
  The kernel's two output arrays after the run: `preAll` and `postAll` of the argument arrays.

  The grid has 64 points; point `t` stages rows `256·t … 256·t + 255` of the tokens (all 2048 columns), the whole weights
  and the whole bias, and writes back the same rows of both outputs. What the body leaves in an output block is, entry
  by entry, a function of the block's entry and of the two scores of the entry's row; with the row's score read as in
  `GateBlock.lean`, entry `(p, d)` of the block written at point `t` is `pre` (or `post`) of `x[256·t + p, d]` and the
  scores of row `256·t + p`, that is, entry `(256·t + p, d)` of `preAll` (or `postAll`). The 64 blocks tile the
  array (row `r` lies in block `r / 256`), so each output array ends equal to the whole-array function.
-/
import proofs.«177491_j55241869361852_1_alg».proof.Proof.KernelIdealValue
import proofs.«177491_j55241869361852_1_alg».proof.Proof.GateBlock

noncomputable section

open scoped BigOperators

namespace Cert.KernelIdeal.RouteValue

open Cert.KernelIdeal Cert.KernelIdeal.Gen Cert.KernelIdeal.Value Idealize.ShloMosaic Idealize.ShloMosaic.TcCoe Idealize.SL.Sem
open Idealize.ShloMosaic.ValueIdx Cert.Gate Cert.GateBlock
open Idealize.ShloMosaic.Pipeline (Dat)

/-! ## One entry of an output block -/

section Entry
variable (P0 : Vec Ideal S256x2048 .f32) (P1 : Vec Ideal S2048x2 .f32) (P2 : Vec Ideal S2 .f32) (p : Fin 256) (d : Fin 2048)

/-- Entry `(p, d)` of the first output block: `pre` of the tokens' entry and the two scores of row `p`. -/
theorem pre_block : E3 P0 P1 P2 (ix2 p d)
    = pre (P0 (ix2 p d)) (score ((∑ k : Fin 2048, P0 (ix2 p k) * P1 (ix2 k (0 : Fin 2))) + P2 (ix1 (0 : Fin 2))))
        (score ((∑ k : Fin 2048, P0 (ix2 p k) * P1 (ix2 k (1 : Fin 2))) + P2 (ix1 (1 : Fin 2)))) := by
  have e0 : ix3_0 (ix2 p d) = ix2 p d := funext fun a => match a with | ⟨0, _⟩ => rfl | ⟨1, _⟩ => rfl
  have e1 : ix3_1 (ix2 p d) = ix2 p (0 : Fin 2) := funext fun a => match a with | ⟨0, _⟩ => rfl | ⟨1, _⟩ => rfl
  have e2 : ix3_2 (ix2 p d) = ix2 p (0 : Fin 2) := funext fun a => match a with | ⟨0, _⟩ => rfl | ⟨1, _⟩ => rfl
  have e3 : ix3_3 (ix2 p d) = ix2 p (0 : Fin 2) := funext fun a => match a with | ⟨0, _⟩ => rfl | ⟨1, _⟩ => rfl
  have e4 : ix3_4 (ix2 p d) = ix2 p d := funext fun a => match a with | ⟨0, _⟩ => rfl | ⟨1, _⟩ => rfl
  have e5 : ix3_5 (ix2 p d) = ix2 p (1 : Fin 2) := funext fun a => match a with | ⟨0, _⟩ => rfl | ⟨1, _⟩ => rfl
  have e6 : ix3_6 (ix2 p d) = ix2 p (1 : Fin 2) := funext fun a => match a with | ⟨0, _⟩ => rfl | ⟨1, _⟩ => rfl
  have e7 : ix3_7 (ix2 p d) = ix2 p (1 : Fin 2) := funext fun a => match a with | ⟨0, _⟩ => rfl | ⟨1, _⟩ => rfl
  dsimp only [E3]
  rw [e0, e1, e2, e3, e4, e5, e6, e7, score_block, score_block]
  unfold pre
  rw [← keep_kernel, ← keep_kernel]
  rfl

/-- Entry `(p, d)` of the second output block: `post` of the tokens' entry and the two scores of row `p`. -/
theorem post_block : E4 P0 P1 P2 (ix2 p d)
    = Gate.post (P0 (ix2 p d)) (score ((∑ k : Fin 2048, P0 (ix2 p k) * P1 (ix2 k (0 : Fin 2))) + P2 (ix1 (0 : Fin 2))))
        (score ((∑ k : Fin 2048, P0 (ix2 p k) * P1 (ix2 k (1 : Fin 2))) + P2 (ix1 (1 : Fin 2)))) := by
  have e0 : ix4_0 (ix2 p d) = ix2 p d := funext fun a => match a with | ⟨0, _⟩ => rfl | ⟨1, _⟩ => rfl
  have e1 : ix4_1 (ix2 p d) = ix2 p (0 : Fin 2) := funext fun a => match a with | ⟨0, _⟩ => rfl | ⟨1, _⟩ => rfl
  have e2 : ix4_2 (ix2 p d) = ix2 p d := funext fun a => match a with | ⟨0, _⟩ => rfl | ⟨1, _⟩ => rfl
  have e3 : ix4_3 (ix2 p d) = ix2 p (1 : Fin 2) := funext fun a => match a with | ⟨0, _⟩ => rfl | ⟨1, _⟩ => rfl
  have e4 : ix4_4 (ix2 p d) = ix2 p (0 : Fin 2) := funext fun a => match a with | ⟨0, _⟩ => rfl | ⟨1, _⟩ => rfl
  have e5 : ix4_5 (ix2 p d) = ix2 p (0 : Fin 2) := funext fun a => match a with | ⟨0, _⟩ => rfl | ⟨1, _⟩ => rfl
  have e6 : ix4_6 (ix2 p d) = ix2 p (1 : Fin 2) := funext fun a => match a with | ⟨0, _⟩ => rfl | ⟨1, _⟩ => rfl
  have e7 : ix4_7 (ix2 p d) = ix2 p (1 : Fin 2) := funext fun a => match a with | ⟨0, _⟩ => rfl | ⟨1, _⟩ => rfl
  dsimp only [E4]
  rw [e0, e1, e2, e3, e4, e5, e6, e7, score_block, score_block]
  unfold Gate.post
  rw [← keep_kernel, ← keep_kernel]
  rfl

end Entry

/-! ## A block entry as an entry of the whole-array function -/

section Point
variable (X : Tokens.Idx → EReal) (W : Weights.Idx → EReal) (B : Bias.Idx → EReal) (P0 : Vec Ideal S256x2048 .f32)
  (r : Fin 256 → Fin 16384) (h0 : ∀ (p : Fin 256) (k : Fin 2048), P0 (ix2 p k) = X (ix2 (r p) k))
include h0

/-- If the tokens' block holds rows `r p` of the array, entry `(p, d)` of the first output block is entry `(r p, d)`
    of `preAll`. -/
theorem pre_point (p : Fin 256) (d : Fin 2048) : E3 P0 W B (ix2 p d) = preAll X W B (ix2 (r p) d) := by
  rw [pre_block]
  unfold preAll logit
  simp only [h0]

/-- If the tokens' block holds rows `r p` of the array, entry `(p, d)` of the second output block is entry `(r p, d)`
    of `postAll`. -/
theorem post_point (p : Fin 256) (d : Fin 2048) : E4 P0 W B (ix2 p d) = postAll X W B (ix2 (r p) d) := by
  rw [post_block]
  unfold postAll logit
  simp only [h0]

end Point

end Cert.KernelIdeal.RouteValue

end
-- ==== Proof.OutputArrays.lean ====
/-
  From blocks to arrays: after the run, the kernel's first result array is `preAll` and its second `postAll` of the
  argument arrays.

  At point `t` of the 64-point grid the tokens' window and both output windows are at block `(t, 0)` — rows
  `256·t … 256·t + 255`, all columns — and the weights' and the bias's windows are the whole arrays. So what point `t` writes
  back is block `t` of the whole-array function (`pre_point`, `post_point` at `r p = 256·t + p`), and since row `i` lies in
  block `i / 256` the blocks cover the array.
-/
import proofs.«177491_j55241869361852_1_alg».proof.Proof.BlockValue

noncomputable section

open scoped BigOperators

namespace Cert.KernelIdeal.RouteValue

open Cert.KernelIdeal Cert.KernelIdeal.Gen Cert.KernelIdeal.Value Idealize.ShloMosaic Idealize.ShloMosaic.TcCoe Idealize.SL.Sem
open Idealize.ShloMosaic.ValueIdx Cert.Gate Cert.GateBlock
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-- The printed index maps over the grid: the tokens' and both outputs' block index is `(t, 0)`; the weights' and the
    bias's is the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The array row under row `p` of the block at point `t`. -/
def rowAt (t : Fin cfg0.N) (p : Fin 256) : Fin 16384 :=
  ⟨t.val * 256 + p.val, by have ht := t.isLt; have hN : cfg0.N = 64 := N_0; have hp := p.isLt; omega⟩

/-- The tokens' block at point `t`. -/
abbrev xblk (c : Dev nD) (t : Fin cfg0.N) : Vec Ideal S256x2048 .f32 := iblk m c 0 t
/-- The weights' block at point `t`. -/
abbrev wblk (c : Dev nD) (t : Fin cfg0.N) : Vec Ideal S2048x2 .f32 := iblk m c 1 t
/-- The bias's block at point `t`. -/
abbrev bblk (c : Dev nD) (t : Fin cfg0.N) : Vec Ideal S2 .f32 := iblk m c 2 t

/-- The tokens' block at point `t` holds rows `256·t + p` of the array. -/
theorem xblk_apply (c : Dev nD) (t : Fin cfg0.N) (p : Fin 256) (k : Fin 2048) :
    xblk m c t (ix2 p k) = V m c main_arg0 (ix2 (rowAt t p) k) := by
  obtain ⟨e0, e1, -⟩ := idx_facts t
  show V m c main_arg0 (((cfg0.win 0).blk t).view.emb (ix2 p k)) = _
  have h : ((cfg0.win 0).blk t).view.emb (ix2 p k) = ix2 (rowAt t p) k := by
    funext a; apply Fin.ext
    match a with
    | ⟨0, _⟩ => show win0_0.index t (0 : Fin 2) * 256 + 1 * p.val = t.val * 256 + p.val; omega
    | ⟨1, _⟩ => show win0_0.index t (1 : Fin 2) * 2048 + 1 * k.val = k.val; omega
  rw [h]

/-- The weights' block at every point is the whole array. -/
theorem wblk_eq (c : Dev nD) (t : Fin cfg0.N) : wblk m c t = V m c main_arg1 := by
  obtain ⟨-, -, e2, e3, -⟩ := idx_facts t
  funext y
  show V m c main_arg1 (((cfg0.win 1).blk t).view.emb y) = V m c main_arg1 y
  have h : ((cfg0.win 1).blk t).view.emb y = y := by
    funext a; apply Fin.ext
    match a with
    | ⟨0, _⟩ => show win0_1.index t (0 : Fin 2) * 2048 + 1 * (y 0).val = (y 0).val; omega
    | ⟨1, _⟩ => show win0_1.index t (1 : Fin 2) * 2 + 1 * (y 1).val = (y 1).val; omega
  rw [h]

/-- The bias's block at every point is the whole array. -/
theorem bblk_eq (c : Dev nD) (t : Fin cfg0.N) : bblk m c t = V m c main_arg2 := by
  obtain ⟨-, -, -, -, e4, -⟩ := idx_facts t
  funext y
  show V m c main_arg2 (((cfg0.win 2).blk t).view.emb y) = V m c main_arg2 y
  have h : ((cfg0.win 2).blk t).view.emb y = y := by
    funext a; apply Fin.ext
    match a with
    | ⟨0, _⟩ => show win0_2.index t (0 : Fin 1) * 2 + 1 * (y 0).val = (y 0).val; omega
  rw [h]

/-- What point `t` writes back to the first result is block `t` of `preAll`. -/
theorem flushed_pre (c : Dev nD) (t : Fin cfg0.N) :
    (dats m 0 c).flushed 3 t
      = ((cfg0.win 3).blk t).view.read (Elt Ideal) (preAll (V m c main_arg0) (V m c main_arg1) (V m c main_arg2)) := by
  rw [flushed3]
  unfold out0_3
  simp only [View.ld_unit_zero (S := S256x2048) zero2, View.ld_unit_zero (S := S2048x2) zero2, View.ld_unit_zero (S := S2) zero1]
  obtain ⟨-, -, -, -, -, e5, e6, -⟩ := idx_facts t
  funext y
  show View.canon [(⟨r0_0, k0_pay8 (xblk m c t) (wblk m c t) (bblk m c t)⟩ : View.Piece (Elt Ideal) S256x2048 .f32)] y
    = preAll (V m c main_arg0) (V m c main_arg1) (V m c main_arg2) (((cfg0.win 3).blk t).view.emb y)
  refine (canon3_eq (xblk m c t) (wblk m c t) (bblk m c t) y).trans ?_
  rw [wblk_eq, bblk_eq]
  obtain ⟨p, d, rfl⟩ : ∃ (p : Fin 256) (d : Fin 2048), y = ix2 p d := ⟨y 0, y 1, eq_ix2 y⟩
  have h : ((cfg0.win 3).blk t).view.emb (ix2 p d) = ix2 (rowAt t p) d := by
    funext a; apply Fin.ext
    match a with
    | ⟨0, _⟩ => show win0_3.index t (0 : Fin 2) * 256 + 1 * p.val = t.val * 256 + p.val; omega
    | ⟨1, _⟩ => show win0_3.index t (1 : Fin 2) * 2048 + 1 * d.val = d.val; omega
  rw [h]
  exact pre_point (V m c main_arg0) (V m c main_arg1) (V m c main_arg2) (xblk m c t) (rowAt t) (xblk_apply m c t) p d

/-- What point `t` writes back to the second result is block `t` of `postAll`. -/
theorem flushed_post (c : Dev nD) (t : Fin cfg0.N) :
    (dats m 0 c).flushed 4 t
      = ((cfg0.win 4).blk t).view.read (Elt Ideal) (postAll (V m c main_arg0) (V m c main_arg1) (V m c main_arg2)) := by
  rw [flushed4]
  unfold out0_4
  simp only [View.ld_unit_zero (S := S256x2048) zero2, View.ld_unit_zero (S := S2048x2) zero2, View.ld_unit_zero (S := S2) zero1]
  obtain ⟨-, -, -, -, -, -, -, e7, e8⟩ := idx_facts t
  funext y
  show View.canon [(⟨r0_0, k0_pay9 (xblk m c t) (wblk m c t) (bblk m c t)⟩ : View.Piece (Elt Ideal) S256x2048 .f32)] y
    = postAll (V m c main_arg0) (V m c main_arg1) (V m c main_arg2) (((cfg0.win 4).blk t).view.emb y)
  refine (canon4_eq (xblk m c t) (wblk m c t) (bblk m c t) y).trans ?_
  rw [wblk_eq, bblk_eq]
  obtain ⟨p, d, rfl⟩ : ∃ (p : Fin 256) (d : Fin 2048), y = ix2 p d := ⟨y 0, y 1, eq_ix2 y⟩
  have h : ((cfg0.win 4).blk t).view.emb (ix2 p d) = ix2 (rowAt t p) d := by
    funext a; apply Fin.ext
    match a with
    | ⟨0, _⟩ => show win0_4.index t (0 : Fin 2) * 256 + 1 * p.val = t.val * 256 + p.val; omega
    | ⟨1, _⟩ => show win0_4.index t (1 : Fin 2) * 2048 + 1 * d.val = d.val; omega
  rw [h]
  exact post_point (V m c main_arg0) (V m c main_arg1) (V m c main_arg2) (xblk m c t) (rowAt t) (xblk_apply m c t) p d

/-- An array index is in point `t`'s block of the first result iff each coordinate is in the block's range. -/
theorem mem_pre (t : Fin cfg0.N) (i : S16384x2048.Idx) :
    i ∈ ((cfg0.win 3).blk t).view.set ↔ ∀ a : Fin 2, win0_3.index t a * S256x2048.size a ≤ (i a).val
      ∧ (i a).val < win0_3.index t a * S256x2048.size a + S256x2048.size a := by
  show i ∈ ((View.whole main_v0_0).slice (win0_3.rect t)).set ↔ _
  rw [View.set_slice_whole, Rect.mem_set_unit]
  exact Iff.rfl

/-- An array index is in point `t`'s block of the second result iff each coordinate is in the block's range. -/
theorem mem_post (t : Fin cfg0.N) (i : S16384x2048.Idx) :
    i ∈ ((cfg0.win 4).blk t).view.set ↔ ∀ a : Fin 2, win0_4.index t a * S256x2048.size a ≤ (i a).val
      ∧ (i a).val < win0_4.index t a * S256x2048.size a + S256x2048.size a := by
  show i ∈ ((View.whole main_v0_1).slice (win0_4.rect t)).set ↔ _
  rw [View.set_slice_whole, Rect.mem_set_unit]
  exact Iff.rfl

/-- The point whose blocks hold row `i 0`. -/
def pointOf (i : S16384x2048.Idx) : Fin cfg0.N :=
  ⟨(i 0).val / 256, by have hi : (i 0).val < 16384 := (i 0).isLt; have hN : cfg0.N = 64 := N_0; omega⟩

/-- Every index of the first result is in the block of the point `i 0 / 256`. -/
theorem cover_pre (i : S16384x2048.Idx) :
    ∃ t : Fin cfg0.N, (cfg0.win 3).flush t = true ∧ i ∈ ((cfg0.win 3).blk t).view.set := by
  have hi0 : (i 0).val < 16384 := (i 0).isLt
  have hi1 : (i 1).val < 2048 := (i 1).isLt
  have ht : (pointOf i).val = (i 0).val / 256 := rfl
  obtain ⟨-, -, -, -, -, e5, e6, -⟩ := idx_facts (pointOf i)
  refine ⟨pointOf i, flush0_3 _, ?_⟩
  rw [mem_pre]
  intro a
  match a with
  | ⟨0, _⟩ =>
    show win0_3.index (pointOf i) (0 : Fin 2) * 256 ≤ (i 0).val ∧ (i 0).val < win0_3.index (pointOf i) (0 : Fin 2) * 256 + 256
    omega
  | ⟨1, _⟩ =>
    show win0_3.index (pointOf i) (1 : Fin 2) * 2048 ≤ (i 1).val ∧ (i 1).val < win0_3.index (pointOf i) (1 : Fin 2) * 2048 + 2048
    omega

/-- Every index of the second result is in the block of the point `i 0 / 256`. -/
theorem cover_post (i : S16384x2048.Idx) :
    ∃ t : Fin cfg0.N, (cfg0.win 4).flush t = true ∧ i ∈ ((cfg0.win 4).blk t).view.set := by
  have hi0 : (i 0).val < 16384 := (i 0).isLt
  have hi1 : (i 1).val < 2048 := (i 1).isLt
  have ht : (pointOf i).val = (i 0).val / 256 := rfl
  obtain ⟨-, -, -, -, -, -, -, e7, e8⟩ := idx_facts (pointOf i)
  refine ⟨pointOf i, flush0_4 _, ?_⟩
  rw [mem_post]
  intro a
  match a with
  | ⟨0, _⟩ =>
    show win0_4.index (pointOf i) (0 : Fin 2) * 256 ≤ (i 0).val ∧ (i 0).val < win0_4.index (pointOf i) (0 : Fin 2) * 256 + 256
    omega
  | ⟨1, _⟩ =>
    show win0_4.index (pointOf i) (1 : Fin 2) * 2048 ≤ (i 1).val ∧ (i 1).val < win0_4.index (pointOf i) (1 : Fin 2) * 2048 + 2048
    omega

/-- The first result array after the run. -/
theorem final_pre (c : Dev nD) : (dats m 0 c).arrAt 3 cfg0.N
    = preAll (m ((c : Thread nD τ).loc main_arg0)) (m ((c : Thread nD τ).loc main_arg1)) (m ((c : Thread nD τ).loc main_arg2)) :=
  (dats m 0 c).arrAt_eq_of_cover 3 _ (fun t _ => flushed_pre m c t) cover_pre

/-- The second result array after the run. -/
theorem final_post (c : Dev nD) : (dats m 0 c).arrAt 4 cfg0.N
    = postAll (m ((c : Thread nD τ).loc main_arg0)) (m ((c : Thread nD τ).loc main_arg1)) (m ((c : Thread nD τ).loc main_arg2)) :=
  (dats m 0 c).arrAt_eq_of_cover 4 _ (fun t _ => flushed_post m c t) cover_post

/-- The kernel's run: every weakly fair execution terminates with the two results at `preAll` and `postAll` of the
    arguments, and the arguments unchanged. -/
theorem run : θ_run defs (onTc (τ := τ) (main (F := Ideal))) ⟨m, fun _ => 0, ρ⟩ fun r => ∀ c : Dev nD,
      r.2.mem ((c : Thread nD τ).loc main_v0_0)
        = preAll (m ((c : Thread nD τ).loc main_arg0)) (m ((c : Thread nD τ).loc main_arg1)) (m ((c : Thread nD τ).loc main_arg2))
      ∧ r.2.mem ((c : Thread nD τ).loc main_v0_1)
        = postAll (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_pre m c), (h c).2.1.trans (final_post m c), (h c).2.2⟩)
    (run_blocks m ρ)

end Cert.KernelIdeal.RouteValue

end
-- ==== Proof.RefGate.lean ====
/-
  The reference program computes the routing arithmetic of `Gate.lean`.

  The reference's stages are read one operation at a time by the generated read-at-an-index lemmas. Its score stage
  (`1 / (1 + exp (-(x · w + b)))`, the sigmoid written out) at row `r`, branch `j` is `score (logit r j)`; the mask
  stage converts the comparison bit to a float, which is `keep`; the slices `[:, 0:1]`, `[:, 1:2]` and the broadcasts
  along the model axis read the row's two scores at every column. The two results are then `preAll` and `postAll`.
-/
import proofs.«177491_j55241869361852_1_alg».proof.Proof.Gen.ReferenceIdeal.Read
import proofs.«177491_j55241869361852_1_alg».proof.Proof.Gate

noncomputable section

open scoped BigOperators

namespace Cert.RefGate

open Cert.ReferenceIdeal Cert.ReferenceIdeal.Read Idealize.ShloMosaic Idealize.ShloMosaic.ValueIdx Cert.Gate

variable (x : (⟨S16384x2048, .f32⟩ : BufTy).Contents (Elt Ideal)) (w : (⟨S2048x2, .f32⟩ : BufTy).Contents (Elt Ideal))
  (b : (⟨S2, .f32⟩ : BufTy).Contents (Elt Ideal))

/-- The reference's score stage at row `r`, branch `j`: the logistic function of the row's logit. -/
theorem score_stage (r : Fin 16384) (j : Fin 2) :
    val_main_v9 (F := Ideal) x w b (ix2 r j) = score (logit x w b r j) := by
  have hl : ∀ k : Fin 2048, lidx_main_v0 (ix2 r j) k = ix2 r k := fun k =>
    funext fun a => match a with | ⟨0, _⟩ => rfl | ⟨1, _⟩ => rfl
  have hr : ∀ k : Fin 2048, ridx_main_v0 (ix2 r j) k = ix2 k j := fun k =>
    funext fun a => match a with | ⟨0, _⟩ => rfl | ⟨1, _⟩ => rfl
  have hb : idx_main_v1 (idx_main_v2 (ix2 r j)) = ix1 j := funext fun a => match a with | ⟨0, _⟩ => rfl
  rw [val_main_v9_apply, val_main_v8_apply, val_main_cst_0_apply, val_main_v7_apply, val_main_v6_apply, val_main_cst_apply,
    val_main_v5_apply, val_main_v4_apply, val_main_v3_apply, val_main_v0_apply, val_main_v2_apply, val_main_v1_apply]
  simp only [hl, hr, hb]
  exact score_host _

/-- The reference's mask stage at row `r`, branch `j`: the routing decision on the row's score. -/
theorem keep_stage (r : Fin 16384) (j : Fin 2) :
    val_main_v12 (F := Ideal) x w b (ix2 r j) = keep (score (logit x w b r j)) := by
  rw [val_main_v12_apply, val_main_v11_apply, val_main_v10_apply, val_main_cst_1_apply, score_stage]
  rfl

/-- The reference's routed-score stage at row `r`, branch `j`: the score times the decision. -/
theorem routed_stage (r : Fin 16384) (j : Fin 2) :
    val_main_v13 (F := Ideal) x w b (ix2 r j) = score (logit x w b r j) * keep (score (logit x w b r j)) := by
  rw [val_main_v13_apply, score_stage, keep_stage]
  rfl

section Columns
variable (r : Fin 16384) (d : Fin 2048)

/-- A slice `[:, 0:1]` broadcast along the model axis reads, at `(r, d)`, column 0 of row `r`. -/
theorem col0_mask : idx_main_v14 (idx_main_v15 (ix2 r d)) = ix2 r (0 : Fin 2) :=
  funext fun a => match a with | ⟨0, _⟩ => rfl | ⟨1, _⟩ => rfl
/-- A slice `[:, 1:2]` broadcast along the model axis reads, at `(r, d)`, column 1 of row `r`. -/
theorem col1_mask : idx_main_v17 (idx_main_v18 (ix2 r d)) = ix2 r (1 : Fin 2) :=
  funext fun a => match a with | ⟨0, _⟩ => rfl | ⟨1, _⟩ => rfl
theorem col0_routed : idx_main_v20 (idx_main_v22 (ix2 r d)) = ix2 r (0 : Fin 2) :=
  funext fun a => match a with | ⟨0, _⟩ => rfl | ⟨1, _⟩ => rfl
theorem col1_routed : idx_main_v21 (idx_main_v24 (ix2 r d)) = ix2 r (1 : Fin 2) :=
  funext fun a => match a with | ⟨0, _⟩ => rfl | ⟨1, _⟩ => rfl
theorem col0_sum : idx_main_v20 (idx_main_v29 (ix2 r d)) = ix2 r (0 : Fin 2) :=
  funext fun a => match a with | ⟨0, _⟩ => rfl | ⟨1, _⟩ => rfl
theorem col1_sum : idx_main_v21 (idx_main_v29 (ix2 r d)) = ix2 r (1 : Fin 2) :=
  funext fun a => match a with | ⟨0, _⟩ => rfl | ⟨1, _⟩ => rfl

end Columns

/-- The reference's first result is `preAll` of its arguments. -/
theorem pre_ref : val_main_v26 (F := Ideal) x w b = preAll x w b := by
  funext i
  obtain ⟨r, d, rfl⟩ : ∃ (r : Fin 16384) (d : Fin 2048), i = ix2 r d := ⟨i 0, i 1, eq_ix2 i⟩
  simp only [val_main_v26_apply, val_main_v23_apply, val_main_v25_apply, val_main_v16_apply, val_main_v19_apply,
    val_main_v15_apply, val_main_v14_apply, val_main_v18_apply, val_main_v17_apply, val_main_v22_apply, val_main_v20_apply,
    val_main_v24_apply, val_main_v21_apply, col0_mask, col1_mask, col0_routed, col1_routed, keep_stage, routed_stage]
  rfl

/-- The reference's second result is `postAll` of its arguments. -/
theorem post_ref : val_main_v30 (F := Ideal) x w b = postAll x w b := by
  funext i
  obtain ⟨r, d, rfl⟩ : ∃ (r : Fin 16384) (d : Fin 2048), i = ix2 r d := ⟨i 0, i 1, eq_ix2 i⟩
  simp only [val_main_v30_apply, val_main_v27_apply, val_main_v29_apply, val_main_v28_apply, val_main_v16_apply, val_main_v19_apply,
    val_main_v15_apply, val_main_v14_apply, val_main_v18_apply, val_main_v17_apply, val_main_v20_apply,
    val_main_v21_apply, col0_mask, col1_mask, col0_sum, col1_sum, keep_stage, routed_stage]
  rfl

end Cert.RefGate

end
-- ==== Proof.lean ====
/-
  Threshold-gated two-branch routing: the kernel against its reference, over the extended reals.

  Every token row gets two gate scores `σ_j = 1 / (1 + e^(-(x·w + b)_j))`; a branch keeps the row when its score is above
  one half, and the two outputs are
    pre  = (x · keep σ₀) · (σ₀ · keep σ₀) + (x · keep σ₁) · (σ₁ · keep σ₁),
    post = (x · keep σ₀ + x · keep σ₁) · (σ₀ · keep σ₀ + σ₁ · keep σ₁)
  row by row (`Proof/Gate.lean`). The kernel computes them 256 rows at a time — the logits by one matrix product into a zero
  accumulator, the score by the logistic operation, the decision by widening the comparison bit and converting it as a signed
  integer — and the reference on the whole arrays — the logits by a `dot_general`, the score as one over one plus the
  exponential of the negated logit, the decision by converting the bit. On the extended reals these are the same functions
  of the arguments with the same order of operations, so the two programs' results are equal index by index and no
  finiteness of the inputs is needed:
    the kernel's two result arrays are `preAll` and `postAll` of its arguments (`Proof/OutputArrays.lean`, over
    `Proof/BlockValue.lean` and `Proof/GateBlock.lean`), and so are the reference's (`Proof/RefGate.lean`).
  The three frames are the programs' runs with the results dropped; the idealization rewrote nothing, so `preserves` is
  trivial.
-/
import proofs.«177491_j55241869361852_1_alg».proof.Defs
import proofs.«177491_j55241869361852_1_alg».proof.Proof.Gen.Kernel
import proofs.«177491_j55241869361852_1_alg».proof.Proof.Gen.Kernel.Skeleton
import proofs.«177491_j55241869361852_1_alg».proof.Proof.Gen.Kernel.Launch
import proofs.«177491_j55241869361852_1_alg».proof.Proof.Gen.Kernel.Points
import proofs.«177491_j55241869361852_1_alg».proof.Proof.Gen.Kernel.Frame
import proofs.«177491_j55241869361852_1_alg».proof.Proof.Gen.KernelIdeal
import proofs.«177491_j55241869361852_1_alg».proof.Proof.Gen.KernelIdeal.Skeleton
import proofs.«177491_j55241869361852_1_alg».proof.Proof.Gen.KernelIdeal.Launch
import proofs.«177491_j55241869361852_1_alg».proof.Proof.Gen.KernelIdeal.Points
import proofs.«177491_j55241869361852_1_alg».proof.Proof.Gen.KernelIdeal.Frame
import proofs.«177491_j55241869361852_1_alg».proof.Proof.Gen.ReferenceIdeal
import proofs.«177491_j55241869361852_1_alg».proof.Proof.Gen.Pre_finite_inputs
import proofs.«177491_j55241869361852_1_alg».proof.Proof.Gen.ReferenceIdeal.Run
import proofs.«177491_j55241869361852_1_alg».proof.Proof.Gen.ReferenceIdeal.Read
import proofs.«177491_j55241869361852_1_alg».proof.Proof.OutputArrays
import proofs.«177491_j55241869361852_1_alg».proof.Proof.RefGate
import Idealize.ShloMosaic.Adequacy
import Idealize.ShloMosaic.Init

noncomputable section

namespace Cert.Proof

open Idealize.ShloMosaic Idealize.ShloMosaic.TcCoe Idealize.SL.Sem Cert.Gate

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the three arguments both programs end with `preAll` and `postAll` of those arguments. -/
theorem algebraic : Cert.algebraic_KernelIdeal_ReferenceIdeal := by
  intro m ρ m' ρ' _ hagree
  refine ⟨_, _, Cert.KernelIdeal.RouteValue.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v26_eq, Cert.RefGate.pre_ref, (hagree c).1, (hagree c).2.1, (hagree c).2.2]
  · rw [(h c).2.1, Cert.ReferenceIdeal.Read.val_main_v30_eq, Cert.RefGate.post_ref, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
